-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S128x1024 : Shape := ⟨2, ![128, 1024]⟩
abbrev S1024x4096 : Shape := ⟨2, ![1024, 4096]⟩
abbrev S128x4096 : Shape := ⟨2, ![128, 4096]⟩
abbrev S1x4096 : Shape := ⟨2, ![1, 4096]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S4096x1024, .f32⟩
  | .hbm, ⟨15, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S2048x4096, .bf16⟩
  | .local _ .vmem, ⟨7, _⟩ => ⟨S4096, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  inb_S128x1024_S128x1024_0_0 : ∀ a, (![0, 0] : Fin 2 → Nat) a + S128x1024.size a ≤ S128x1024.size a
  h_S128x1024 : 0 < S128x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S4096x1024.size a
  hwx0_5 : ∀ i : grid0.Coords, EltTy.bits .f32 = 32 ∨ (Rect.block (s := S4096x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S128x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S2048x4096, .f32⟩
  | .hbm, ⟨13, _⟩ => ⟨S4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.FrameIdeal.lean ====
/-
  The printed kernel program runs to the end, faults nowhere and leaves its argument arrays as they were.

  @main first joins the four gate weight matrices side by side into one 2048 x 4096 matrix, narrows it to bf16, and
  joins the four bias vectors into one of length 4096; none of these three host operations writes an argument array.
  Then one pipelined region runs the LSTM cell body at 32 grid points. Point t reads rows 128 t .. 128 t + 127 of the
  hidden state, the input and the cell state (windows 0, 1, 2, fetched at every point), the whole packed weight and the
  whole packed bias (windows 3, 4, fetched once and kept), and writes rows 128 t .. 128 t + 127 of the new hidden state and
  the new cell state (windows 5, 6). The body only loads through literal rectangles and stores each output block whole, so
  what it leaves in an output block is a pure function of the five input blocks: the stored payload, read through the
  one rectangle that covers the block.
  Stated at any float instance.
-/
import proofs.«150148_j2448131358889_1_alg».proof.Proof.Gen.KernelIdeal.Launch
import proofs.«150148_j2448131358889_1_alg».proof.Proof.Gen.KernelIdeal.Skeleton
import proofs.«150148_j2448131358889_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the three host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The host operations write only the packed weight (both widths) and the packed bias, never argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or an earlier
    one did and the block index has not moved since. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or an earlier
    one did and the block index has not moved since. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or an earlier
    one did and the block index has not moved since. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or an earlier
    one did and the block index has not moved since. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or an earlier
    one did and the block index has not moved since. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A whole 128 x 1024 block. -/
abbrev rBlk : Rect S128x1024 := Rect.unit (s := S128x1024) ![0, 0] S128x1024.size inb_S128x1024_S128x1024_0_0
/-- Rows 0 .. 1023 of the packed weight: the rows that meet the hidden state. -/
abbrev rWh : Rect S2048x4096 := Rect.unit (s := S2048x4096) ![0, 0] S1024x4096.size inb_S2048x4096_S1024x4096_0_0
/-- Rows 1024 .. 2047 of the packed weight: the rows that meet the input. -/
abbrev rWx : Rect S2048x4096 := Rect.unit (s := S2048x4096) ![1024, 0] S1024x4096.size inb_S2048x4096_S1024x4096_1024_0
/-- The whole packed bias. -/
abbrev rB : Rect S4096 := Rect.unit (s := S4096) ![0] S4096.size inb_S4096_S4096_0

/-! ## What the body leaves in each output block -/

/-- The new hidden state's block from the five input blocks (hidden, input, cell, packed weight, packed bias). -/
def outH (x0 x1 x2 : Vec F S128x1024 .f32) (x3 : Vec F S2048x4096 .bf16) (x4 : Vec F S4096 .f32) : Vec F S128x1024 .f32 :=
  View.canon [⟨rBlk, k0_pay3 (View.ld x0 rBlk) (View.ld x1 rBlk) (View.ld x3 rWh) (View.ld x3 rWx) (View.ld x4 rB) (View.ld x2 rBlk)⟩]

/-- The new cell state's block from the same five. -/
def outC (x0 x1 x2 : Vec F S128x1024 .f32) (x3 : Vec F S2048x4096 .bf16) (x4 : Vec F S4096 .f32) : Vec F S128x1024 .f32 :=
  View.canon [⟨rBlk, k0_pay2 (View.ld x0 rBlk) (View.ld x1 rBlk) (View.ld x3 rWh) (View.ld x3 rWx) (View.ld x4 rB) (View.ld x2 rBlk)⟩]

/-- The one store of an output block covers the block. -/
theorem coverBlk (p0 : Vec F S128x1024 .f32) (y : S128x1024.Idx) :
    ∃ pc ∈ ([⟨rBlk, p0⟩] : List (View.Piece (Elt F) S128x1024 .f32)), y ∈ pc.1.set :=
  View.cover_of_tiled [⟨rBlk, p0⟩] S128x1024.size (by rfl) y

/-! ## The body's triple -/

set_option maxHeartbeats 1000000 in
/-- The body on whole staging memrefs, the five inputs' at known contents and the two outputs' at anything, runs to a
    continuation that holds the inputs' as they were and the outputs' at `outH` and `outC` of the inputs. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S2048x4096 .bf16) (harg4 : arg4.IsWhole)
    (arg5 : Memref sig .tc .vmem S4096 .f32) (harg5 : arg5.IsWhole) (arg6 : Memref sig .tc .vmem S128x1024 .f32) (harg6 : arg6.IsWhole)
    (arg7 : Memref sig .tc .vmem S128x1024 .f32) (harg7 : arg7.IsWhole)
    (x0 x1 x2 : Vec F S128x1024 .f32) (x3 : Vec F S2048x4096 .bf16) (x4 : Vec F S4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverBlk _)
  iexists _; isplitr
  swap; · iexact H6
  ipureintro
  exact View.read_writes_eq_canon _ _ _ (coverBlk _)

/-! ## The pipeline's proof data -/

/-- The proof data of the one pipeline on core `c`: the arrays as the region finds them; after the body at point `t`
    each input's buffer still at its block and each output's at its function of the five input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outH (iblk m c 0 t) (iblk m c 1 t) (iblk m c 2 t) (iblk m c 3 t) (iblk m c 4 t) := by dsimp only [dats]
theorem after0_6 (c : Dev nD) (t : Fin cfg0.N) : (dats m 0 c).after 6 t = outC (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the frame run the argument arrays are as launched: hidden, input and cell state are input windows (read back
    as their entry contents), the eight weight and bias arguments are staged by no window (kept as the region found them),
    and the host operations wrote none of the eleven. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The frame: the program runs to the end from any memory with zero counters, and its argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept m r h c) (run_main m ρ)

end Cert.KernelIdeal.Fr

end
-- ==== Proof.FrameBits.lean ====
/-
  The printed kernel program runs to the end, faults nowhere and leaves its argument arrays as they were.

  @main first joins the four gate weight matrices side by side into one 2048 x 4096 matrix, narrows it to bf16, and
  joins the four bias vectors into one of length 4096; none of these three host operations writes an argument array.
  Then one pipelined region runs the LSTM cell body at 32 grid points. Point t reads rows 128 t .. 128 t + 127 of the
  hidden state, the input and the cell state (windows 0, 1, 2, fetched at every point), the whole packed weight and the
  whole packed bias (windows 3, 4, fetched once and kept), and writes rows 128 t .. 128 t + 127 of the new hidden state and
  the new cell state (windows 5, 6). The body only loads through literal rectangles and stores each output block whole, so
  what it leaves in an output block is a pure function of the five input blocks: the stored payload, read through the
  one rectangle that covers the block.
  Stated at any float instance.
-/
import proofs.«150148_j2448131358889_1_alg».proof.Proof.Gen.Kernel.Launch
import proofs.«150148_j2448131358889_1_alg».proof.Proof.Gen.Kernel.Skeleton
import proofs.«150148_j2448131358889_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the three host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The host operations write only the packed weight (both widths) and the packed bias, never argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- The host operations write only the packed weight (both widths) and the packed bias, never argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or an earlier
    one did and the block index has not moved since. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or an earlier
    one did and the block index has not moved since. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or an earlier
    one did and the block index has not moved since. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or an earlier
    one did and the block index has not moved since. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or an earlier
    one did and the block index has not moved since. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A whole 128 x 1024 block. -/
abbrev rBlk : Rect S128x1024 := Rect.unit (s := S128x1024) ![0, 0] S128x1024.size inb_S128x1024_S128x1024_0_0
/-- Rows 0 .. 1023 of the packed weight: the rows that meet the hidden state. -/
abbrev rWh : Rect S2048x4096 := Rect.unit (s := S2048x4096) ![0, 0] S1024x4096.size inb_S2048x4096_S1024x4096_0_0
/-- Rows 1024 .. 2047 of the packed weight: the rows that meet the input. -/
abbrev rWx : Rect S2048x4096 := Rect.unit (s := S2048x4096) ![1024, 0] S1024x4096.size inb_S2048x4096_S1024x4096_1024_0
/-- The whole packed bias. -/
abbrev rB : Rect S4096 := Rect.unit (s := S4096) ![0] S4096.size inb_S4096_S4096_0

/-! ## What the body leaves in each output block -/

/-- The new hidden state's block from the five input blocks (hidden, input, cell, packed weight, packed bias). -/
def outH (x0 x1 x2 : Vec F S128x1024 .f32) (x3 : Vec F S2048x4096 .bf16) (x4 : Vec F S4096 .f32) : Vec F S128x1024 .f32 :=
  View.canon [⟨rBlk, k0_pay3 (View.ld x0 rBlk) (View.ld x1 rBlk) (View.ld x3 rWh) (View.ld x3 rWx) (View.ld x4 rB) (View.ld x2 rBlk)⟩]

/-- The new cell state's block from the same five. -/
def outC (x0 x1 x2 : Vec F S128x1024 .f32) (x3 : Vec F S2048x4096 .bf16) (x4 : Vec F S4096 .f32) : Vec F S128x1024 .f32 :=
  View.canon [⟨rBlk, k0_pay2 (View.ld x0 rBlk) (View.ld x1 rBlk) (View.ld x3 rWh) (View.ld x3 rWx) (View.ld x4 rB) (View.ld x2 rBlk)⟩]

/-- The one store of an output block covers the block. -/
theorem coverBlk (p0 : Vec F S128x1024 .f32) (y : S128x1024.Idx) :
    ∃ pc ∈ ([⟨rBlk, p0⟩] : List (View.Piece (Elt F) S128x1024 .f32)), y ∈ pc.1.set :=
  View.cover_of_tiled [⟨rBlk, p0⟩] S128x1024.size (by rfl) y

/-! ## The body's triple -/

set_option maxHeartbeats 1000000 in
/-- The body on whole staging memrefs, the five inputs' at known contents and the two outputs' at anything, runs to a
    continuation that holds the inputs' as they were and the outputs' at `outH` and `outC` of the inputs. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S2048x4096 .bf16) (harg4 : arg4.IsWhole)
    (arg5 : Memref sig .tc .vmem S4096 .f32) (harg5 : arg5.IsWhole) (arg6 : Memref sig .tc .vmem S128x1024 .f32) (harg6 : arg6.IsWhole)
    (arg7 : Memref sig .tc .vmem S128x1024 .f32) (harg7 : arg7.IsWhole)
    (x0 x1 x2 : Vec F S128x1024 .f32) (x3 : Vec F S2048x4096 .bf16) (x4 : Vec F S4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverBlk _)
  iexists _; isplitr
  swap; · iexact H6
  ipureintro
  exact View.read_writes_eq_canon _ _ _ (coverBlk _)

/-! ## The pipeline's proof data -/

/-- The proof data of the one pipeline on core `c`: the arrays as the region finds them; after the body at point `t`
    each input's buffer still at its block and each output's at its function of the five input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outH (iblk m c 0 t) (iblk m c 1 t) (iblk m c 2 t) (iblk m c 3 t) (iblk m c 4 t) := by dsimp only [dats]
theorem after0_6 (c : Dev nD) (t : Fin cfg0.N) : (dats m 0 c).after 6 t = outC (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the frame run the argument arrays are as launched: hidden, input and cell state are input windows (read back
    as their entry contents), the eight weight and bias arguments are staged by no window (kept as the region found them),
    and the host operations wrote none of the eleven. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The frame: the program runs to the end from any memory with zero counters, and its argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept m r h c) (run_main m ρ)

end Cert.Kernel.Fr

end
-- ==== Proof.Spec.lean ====
/-
  The LSTM cell, as a function of the argument arrays.

  For one batch row, with hidden row h and input row x (1024 entries each), a packed weight W of 2048 x 4096 and a packed
  bias b of 4096, the four gates' pre-activations are, for j < 4096,
      g j = (sum over k < 1024 of h k * W (k, j) + sum over k < 1024 of x k * W (1024 + k, j)) + b j :
  rows 0 .. 1023 of W meet the hidden state and rows 1024 .. 2047 the input. Columns 0 .. 1023 of g are the forget
  gate, 1024 .. 2047 the input gate, 2048 .. 3071 the candidates and 3072 .. 4095 the output gate. With the previous cell
  value c at column n < 1024,
      new cell   = logistic (g n) * c + logistic (g (1024 + n)) * tanh (g (2048 + n)),
      new hidden = logistic (g (3072 + n)) * tanh (new cell),
  all on the extended reals. The one law used between two arrangements of this value is that a sum over 2048 terms is the
  sum over the first 1024 plus the sum over the last 1024, which holds in any commutative monoid and so needs no
  finiteness.
-/
import Idealize.ShloMosaic.PureOps.Ideal
import Idealize.ShloMosaic.Lib.ValueIdx
import Mathlib.Algebra.BigOperators.Fin

noncomputable section

namespace Cert.Lstm

open Idealize.ShloMosaic Idealize.ShloMosaic.ValueIdx

/-- Row k < 1024 of the packed weight: a row that meets the hidden state. -/
def lo (k : Fin 1024) : Fin 2048 := ⟨k.val, by have := k.isLt; omega⟩
/-- Row 1024 + k of the packed weight: a row that meets the input. -/
def hi (k : Fin 1024) : Fin 2048 := ⟨1024 + k.val, by have := k.isLt; omega⟩
/-- Column s + n of the gates, for the gate that starts at column s. -/
def col (s : ℕ) (hs : s + 1024 ≤ 4096) (n : Fin 1024) : Fin 4096 := ⟨s + n.val, by have := n.isLt; omega⟩

theorem lo_val (k : Fin 1024) : (lo k).val = k.val := rfl
theorem hi_val (k : Fin 1024) : (hi k).val = 1024 + k.val := rfl
theorem col_val (s : ℕ) (hs : s + 1024 ≤ 4096) (n : Fin 1024) : (col s hs n).val = s + n.val := rfl

/-- A sum over 2048 terms is the sum over the first 1024 plus the sum over the last 1024. -/
theorem sum_split {M : Type*} [AddCommMonoid M] (f : Fin 2048 → M) :
    ∑ k : Fin 2048, f k = ∑ k : Fin 1024, f (lo k) + ∑ k : Fin 1024, f (hi k) :=
  Fin.sum_univ_add (a := 1024) (b := 1024) (f : Fin (1024 + 1024) → M)

/-- The gates' pre-activations of one batch row, from the two halves of the packed weight given apart. -/
def gateK (hr xr : Fin 1024 → EReal) (Wh Wx : Fin 1024 → Fin 4096 → EReal) (b : Fin 4096 → EReal) (j : Fin 4096) : EReal :=
  (∑ k : Fin 1024, hr k * Wh k j + ∑ k : Fin 1024, xr k * Wx k j) + b j

/-- The new cell value at column n, from the row's gates and the previous cell value. -/
def cellRow (g : Fin 4096 → EReal) (cprev : EReal) (n : Fin 1024) : EReal :=
  Ideal.logistic (g (col 0 (by omega) n)) * cprev
    + Ideal.logistic (g (col 1024 (by omega) n)) * Ideal.tanh (g (col 2048 (by omega) n))

/-- The new hidden value at column n. -/
def hiddenRow (g : Fin 4096 → EReal) (cprev : EReal) (n : Fin 1024) : EReal :=
  Ideal.logistic (g (col 3072 (by omega) n)) * Ideal.tanh (cellRow g cprev n)

/-- A [4096, 1024] array, a [2048, 4096] array, a [4096] array of extended reals. -/
abbrev Act := (⟨2, ![4096, 1024]⟩ : Shape).Idx → EReal
abbrev Wt := (⟨2, ![2048, 4096]⟩ : Shape).Idx → EReal
abbrev Bias := (⟨1, ![4096]⟩ : Shape).Idx → EReal

/-- The gates of batch row r from the whole arrays: hidden state H, input X, packed weight W, packed bias b. -/
def gates (H X : Act) (W : Wt) (b : Bias) (r : Fin 4096) : Fin 4096 → EReal :=
  gateK (fun k => H (ix2 r k)) (fun k => X (ix2 r k)) (fun k j => W (ix2 (lo k) j)) (fun k j => W (ix2 (hi k) j))
    (fun j => b (ix1 j))

/-- The new cell state, whole. -/
def newCell (H X C : Act) (W : Wt) (b : Bias) : Act := fun i => cellRow (gates H X W b (i 0)) (C i) (i 1)

/-- The new hidden state, whole. -/
def newHidden (H X C : Act) (W : Wt) (b : Bias) : Act := fun i => hiddenRow (gates H X W b (i 0)) (C i) (i 1)

/-- The same gates with the contraction written as ONE sum over the 2048 rows of the packed weight against the hidden
    row followed by the input row. -/
theorem gates_eq_sum (H X : Act) (W : Wt) (b : Bias) (r : Fin 4096) (j : Fin 4096) (cat : Fin 2048 → EReal)
    (hlo : ∀ k, cat (lo k) = H (ix2 r k)) (hhi : ∀ k, cat (hi k) = X (ix2 r k)) :
    ∑ k : Fin 2048, cat k * W (ix2 k j) + b (ix1 j) = gates H X W b r j := by
  unfold gates gateK
  rw [sum_split]
  simp only [hlo, hhi]

/-- The word of 1.0 is the number one. -/
theorem one_word : Ideal.ofBits .f32 0x3F800000#32 = 1 := by
  simp [Ideal.ofBits, Ideal.ieee, -EReal.coe_mul]; norm_num

/-- The logistic function spelt out with the word of 1.0, as jax expands it. -/
theorem logistic_expanded (x : EReal) :
    Ideal.div (Ideal.ofBits .f32 0x3F800000#32) (Ideal.ofBits .f32 0x3F800000#32 + Ideal.exp (-x)) = Ideal.logistic x := by
  rw [one_word]; rfl

end Cert.Lstm

end
-- ==== Proof.KPay.lean ====
/-
  The kernel body's arithmetic, read at one entry of a block, at the ideal values.

  The body holds a block of 128 batch rows. Narrowing to bf16 is the identity on the extended reals, and a matrix
  product into a zero accumulator is the plain sum over the contracted axis; so at row p and gate column j the body's
  pre-activation is the hidden row against rows 0 .. 1023 of the packed weight, plus the input row against rows
  1024 .. 2047, plus the packed bias at j (the bias is recast to one row and repeated down the 128 rows). The four
  gates are the column ranges starting at 0, 1024, 2048 and 3072, and the two stored values are the new cell and the
  new hidden value of the specification for that row.
-/
import proofs.«150148_j2448131358889_1_alg».proof.Proof.Gen.KernelIdeal.Skeleton
import proofs.«150148_j2448131358889_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KPay

open Cert.KernelIdeal Cert.KernelIdeal.Gen
open Idealize.ShloMosaic Idealize.ShloMosaic.TcCoe Idealize.ShloMosaic.ValueIdx Idealize.SL.Sem

/-! ## The matrix product at an entry -/

theorem lhs_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A [128, 1024] block times a [1024, 4096] block into the zero accumulator, at row p and column j: the sum over the
    1024 contracted entries. -/
theorem matmul_ix (a : FVec Ideal S128x1024 .bf16) (w : FVec Ideal S1024x4096 .bf16) (p : Fin 128) (j : Fin 4096) :
    matmul (F := Ideal) dot_S128x1024_S1024x4096_S128x4096_1_0_0_1_n_n none a w (constant (F := Ideal) S128x4096 .f32 0x00000000#32) (ix2 p j)
      = ∑ k : Fin 1024, a (ix2 p k) * w (ix2 k j) := by
  refine (Ideal.matmul_constant_zero_apply dot_S128x1024_S1024x4096_S128x4096_1_0_0_1_n_n none a w (ix2 p j)).trans ?_
  rw [← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p j) ((ValueIdx.contrEquiv1 dot_S128x1024_S1024x4096_S128x4096_1_0_0_1_n_n 1024 rfl rfl).symm k) = ix2 p k := funext fun a => Fin.ext (by
    match a with
    | ⟨0, _⟩ => exact lhs_0 _ _
    | ⟨1, _⟩ => exact (lhs_1 _ _).trans hk)
  have er : dot_S128x1024_S1024x4096_S128x4096_1_0_0_1_n_n.rhsIdx (ix2 p j) ((ValueIdx.contrEquiv1 dot_S128x1024_S1024x4096_S128x4096_1_0_0_1_n_n 1024 rfl rfl).symm k) = ix2 k j := funext fun a => Fin.ext (by
    match a with
    | ⟨0, _⟩ => exact (rhs_0 _ _).trans hk
    | ⟨1, _⟩ => exact rhs_1 _ _)
  rw [el, er]

/-! ## The bias, recast to one row and repeated down the rows -/

theorem bias_ix (b : FVec Ideal S4096 .f32) (h1 : S4096.ShapeCasts S1x4096)
    (h2 : S1x4096.Broadcasts S128x4096) (p : Fin 128) (j : Fin 4096) :
    broadcastTo S128x4096 (shapeCast S1x4096 b h1) h2 (ix2 p j) = b (ix1 j) := by
  refine (broadcastTo_1b_ab_apply _ h2 p j).trans (shapeCast_apply b h1 _ (ix1 j) ?_)
  rw [Shape.rowMajor_val_one, Shape.rowMajor_val_two]
  show j.val = 0 * 4096 + j.val
  omega

/-! ## A gate cut out of the pre-activations -/

theorem slice_ix (s : ℕ) (hs : s + 1024 ≤ 4096) (hS : S128x4096.Slices ![0, s] S128x1024)
    (x : FVec Ideal S128x4096 .f32) (p : Fin 128) (q : Fin 1024) :
    extractStridedSlice S128x1024 ![0, s] x hS (ix2 p q) = x (ix2 p (Lstm.col s hs q)) := by
  refine extractStridedSlice_apply _ x hS (ix2 p q) (ix2 p (Lstm.col s hs q)) (fun a => ?_)
  match a with
  | ⟨0, _⟩ => show p.val = 0 + p.val; omega
  | ⟨1, _⟩ => rfl

/-! ## The three payloads -/

variable (v0 v2 : Vec Ideal S128x1024 .f32) (v4 v6 : Vec Ideal S1024x4096 .bf16) (v11 : Vec Ideal S4096 .f32)
  (v24 : Vec Ideal S128x1024 .f32)

/-- The gates of block row p, from the loaded blocks. -/
abbrev rowGates (p : Fin 128) : Fin 4096 → EReal :=
  Lstm.gateK (fun k => v0 (ix2 p k)) (fun k => v2 (ix2 p k)) (fun k j => v4 (ix2 k j)) (fun k j => v6 (ix2 k j))
    (fun j => v11 (ix1 j))

/-- The pre-activations at row p and gate column j. -/
theorem pay1_apply (p : Fin 128) (j : Fin 4096) :
    k0_pay1 (F := Ideal) v0 v2 v4 v6 v11 (ix2 p j) = rowGates v0 v2 v4 v6 v11 p j := by
  unfold k0_pay1
  simp only [shapeCast_self]
  show matmul (F := Ideal) dot_S128x1024_S1024x4096_S128x4096_1_0_0_1_n_n none _ v4 (constant (F := Ideal) S128x4096 .f32 0x00000000#32) (ix2 p j)
      + matmul (F := Ideal) dot_S128x1024_S1024x4096_S128x4096_1_0_0_1_n_n none _ v6 (constant (F := Ideal) S128x4096 .f32 0x00000000#32) (ix2 p j)
      + broadcastTo S128x4096 _ _ (ix2 p j) = _
  rw [matmul_ix, matmul_ix, bias_ix]
  rfl

/-- The stored new cell value at row p and column q. -/
theorem pay2_apply (p : Fin 128) (q : Fin 1024) :
    k0_pay2 (F := Ideal) v0 v2 v4 v6 v11 v24 (ix2 p q)
      = Lstm.cellRow (rowGates v0 v2 v4 v6 v11 p) (v24 (ix2 p q)) q := by
  unfold k0_pay2
  simp only [addf, mulf, logistic, tanh]
  rw [slice_ix 0 (by omega), slice_ix 1024 (by omega), slice_ix 2048 (by omega), pay1_apply, pay1_apply, pay1_apply]
  rfl

/-- The stored new hidden value at row p and column q. -/
theorem pay3_apply (p : Fin 128) (q : Fin 1024) :
    k0_pay3 (F := Ideal) v0 v2 v4 v6 v11 v24 (ix2 p q)
      = Lstm.hiddenRow (rowGates v0 v2 v4 v6 v11 p) (v24 (ix2 p q)) q := by
  unfold k0_pay3
  simp only [mulf, logistic, tanh]
  rw [slice_ix 3072 (by omega), pay1_apply, pay2_apply]
  rfl

end Cert.KernelIdeal.KPay

end
-- ==== Proof.KValue.lean ====
/-
  What the idealized kernel program leaves in its two result arrays: the LSTM cell of the specification.

  When the region is entered the packed weight holds the four gate weight matrices side by side (narrowed to bf16, which
  changes nothing on the extended reals) and the packed bias the four bias vectors end to end. Grid point t stages rows
  128 t .. 128 t + 127 of the hidden state, the input and the cell state, and the whole packed weight and bias; entry (p, q)
  of a row block is entry (128 t + p, q) of its array, and the weight's two loaded halves are its rows k and 1024 + k. So the
  body's stored values at (p, q) are the specification's new cell and new hidden value of batch row 128 t + p, and point t
  writes back block t of the specification's arrays. Row r lies in the block of point r / 128, so the 32 blocks cover the
  arrays and the arrays end holding the specification's values everywhere.
-/
import proofs.«150148_j2448131358889_1_alg».proof.Proof.FrameIdeal
import proofs.«150148_j2448131358889_1_alg».proof.Proof.KPay
import proofs.«150148_j2448131358889_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the host operations wrote -/

/-- The four gate weight matrices side by side, narrowed. -/
def packedW (c : Dev nD) : (⟨S2048x4096, .bf16⟩ : BufTy).Contents (Elt Ideal) :=
  truncf (F := Ideal) .bf16 (concatenate S2048x4096 1 [⟨S2048x1024, (m ((c.tc : Thread nD τ).loc main_arg3))⟩, ⟨S2048x1024, (m ((c.tc : Thread nD τ).loc main_arg5))⟩, ⟨S2048x1024, (m ((c.tc : Thread nD τ).loc main_arg7))⟩, ⟨S2048x1024, (m ((c.tc : Thread nD τ).loc main_arg9))⟩] concatenates_S2048x1024_S2048x1024_S2048x1024_S2048x1024_S2048x4096_d1) bitsLt_bf16_f32

/-- The four bias vectors end to end. -/
def packedB (c : Dev nD) : (⟨S4096, .f32⟩ : BufTy).Contents (Elt Ideal) :=
  concatenate S4096 0 [⟨S1024, (m ((c.tc : Thread nD τ).loc main_arg4))⟩, ⟨S1024, (m ((c.tc : Thread nD τ).loc main_arg6))⟩, ⟨S1024, (m ((c.tc : Thread nD τ).loc main_arg8))⟩, ⟨S1024, (m ((c.tc : Thread nD τ).loc main_arg10))⟩] concatenates_S1024_S1024_S1024_S1024_S4096_d0

theorem V_w (c : Dev nD) : V m c main_v1 = packedW m c := by
  dsimp only [V]
  simp only [hostOps0, List.flatten_cons, List.flatten_nil, List.append_nil, List.cons_append, List.nil_append]
  after_results
  rfl

theorem V_b (c : Dev nD) : V m c main_v2 = packedB m c := by
  dsimp only [V]
  simp only [hostOps0, List.flatten_cons, List.flatten_nil, List.append_nil, List.cons_append, List.nil_append]
  after_results
  rfl

/-! ## Where a block's entries sit in the arrays -/

theorem hz : (![0, 0] : Fin 2 → Nat) = fun _ => 0 := funext fun a => by fin_cases a <;> rfl
theorem hz1 : (![0] : Fin 1 → Nat) = fun _ => 0 := funext fun a => by fin_cases a; rfl

/-- The printed index maps over the grid: the five row-blocked windows sit at block row t, the packed weight and bias at
    their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Batch row 128 t + p: row p of point t's block. -/
def row (t : Fin cfg0.N) (p : Fin 128) : Fin 4096 :=
  ⟨t.val * 128 + p.val, by
    have ht : t.val < 32 := lt_of_lt_of_eq t.isLt N_0
    have := p.isLt; omega⟩

theorem embRow0 (t : Fin cfg0.N) (p : Fin 128) (q : Fin 1024) :
    ((cfg0.win 0).blk t).view.emb (ix2 p q) = ix2 (row t p) q := by
  obtain ⟨e00, e01, e10, e11, e20, e21, e30, e31, e40, e50, e51, e60, e61⟩ := idx_facts t
  funext a; apply Fin.ext
  match a with
  | ⟨0, _⟩ => show win0_0.index t (0 : Fin 2) * 128 + 1 * p.val = t.val * 128 + p.val; omega
  | ⟨1, _⟩ => show win0_0.index t (1 : Fin 2) * 1024 + 1 * q.val = q.val; omega
theorem embRow1 (t : Fin cfg0.N) (p : Fin 128) (q : Fin 1024) :
    ((cfg0.win 1).blk t).view.emb (ix2 p q) = ix2 (row t p) q := by
  obtain ⟨e00, e01, e10, e11, e20, e21, e30, e31, e40, e50, e51, e60, e61⟩ := idx_facts t
  funext a; apply Fin.ext
  match a with
  | ⟨0, _⟩ => show win0_1.index t (0 : Fin 2) * 128 + 1 * p.val = t.val * 128 + p.val; omega
  | ⟨1, _⟩ => show win0_1.index t (1 : Fin 2) * 1024 + 1 * q.val = q.val; omega
theorem embRow2 (t : Fin cfg0.N) (p : Fin 128) (q : Fin 1024) :
    ((cfg0.win 2).blk t).view.emb (ix2 p q) = ix2 (row t p) q := by
  obtain ⟨e00, e01, e10, e11, e20, e21, e30, e31, e40, e50, e51, e60, e61⟩ := idx_facts t
  funext a; apply Fin.ext
  match a with
  | ⟨0, _⟩ => show win0_2.index t (0 : Fin 2) * 128 + 1 * p.val = t.val * 128 + p.val; omega
  | ⟨1, _⟩ => show win0_2.index t (1 : Fin 2) * 1024 + 1 * q.val = q.val; omega
theorem embRow5 (t : Fin cfg0.N) (p : Fin 128) (q : Fin 1024) :
    ((cfg0.win 5).blk t).view.emb (ix2 p q) = ix2 (row t p) q := by
  obtain ⟨e00, e01, e10, e11, e20, e21, e30, e31, e40, e50, e51, e60, e61⟩ := idx_facts t
  funext a; apply Fin.ext
  match a with
  | ⟨0, _⟩ => show win0_5.index t (0 : Fin 2) * 128 + 1 * p.val = t.val * 128 + p.val; omega
  | ⟨1, _⟩ => show win0_5.index t (1 : Fin 2) * 1024 + 1 * q.val = q.val; omega
theorem embRow6 (t : Fin cfg0.N) (p : Fin 128) (q : Fin 1024) :
    ((cfg0.win 6).blk t).view.emb (ix2 p q) = ix2 (row t p) q := by
  obtain ⟨e00, e01, e10, e11, e20, e21, e30, e31, e40, e50, e51, e60, e61⟩ := idx_facts t
  funext a; apply Fin.ext
  match a with
  | ⟨0, _⟩ => show win0_6.index t (0 : Fin 2) * 128 + 1 * p.val = t.val * 128 + p.val; omega
  | ⟨1, _⟩ => show win0_6.index t (1 : Fin 2) * 1024 + 1 * q.val = q.val; omega

/-- The weight's lower loaded half at (k, j) is the packed weight at row k. -/
theorem embWh (t : Fin cfg0.N) (k : Fin 1024) (j : Fin 4096) :
    ((cfg0.win 3).blk t).view.emb (rWh.emb (ix2 k j)) = ix2 (Lstm.lo k) j := by
  obtain ⟨e00, e01, e10, e11, e20, e21, e30, e31, e40, e50, e51, e60, e61⟩ := idx_facts t
  funext a; apply Fin.ext
  match a with
  | ⟨0, _⟩ => show win0_3.index t (0 : Fin 2) * 2048 + 1 * (0 + 1 * k.val) = k.val; omega
  | ⟨1, _⟩ => show win0_3.index t (1 : Fin 2) * 4096 + 1 * (0 + 1 * j.val) = j.val; omega

/-- The weight's upper loaded half at (k, j) is the packed weight at row 1024 + k. -/
theorem embWx (t : Fin cfg0.N) (k : Fin 1024) (j : Fin 4096) :
    ((cfg0.win 3).blk t).view.emb (rWx.emb (ix2 k j)) = ix2 (Lstm.hi k) j := by
  obtain ⟨e00, e01, e10, e11, e20, e21, e30, e31, e40, e50, e51, e60, e61⟩ := idx_facts t
  funext a; apply Fin.ext
  match a with
  | ⟨0, _⟩ => show win0_3.index t (0 : Fin 2) * 2048 + 1 * (1024 + 1 * k.val) = 1024 + k.val; omega
  | ⟨1, _⟩ => show win0_3.index t (1 : Fin 2) * 4096 + 1 * (0 + 1 * j.val) = j.val; omega

/-- The bias block is the whole packed bias. -/
theorem embB (t : Fin cfg0.N) (j : Fin 4096) :
    ((cfg0.win 4).blk t).view.emb (ix1 j) = ix1 j := by
  obtain ⟨e00, e01, e10, e11, e20, e21, e30, e31, e40, e50, e51, e60, e61⟩ := idx_facts t
  funext a; apply Fin.ext
  match a with
  | ⟨0, _⟩ => show win0_4.index t (0 : Fin 1) * 4096 + 1 * j.val = j.val; omega

/-! ## The body's values at a point are the specification's -/

/-- The gates the body computes for block row p at point t are the specification's gates of batch row 128 t + p. -/
theorem gates_blk (c : Dev nD) (t : Fin cfg0.N) (p : Fin 128) :
    KPay.rowGates (iblk m c 0 t) (iblk m c 1 t) (View.ld (iblk m c 3 t) rWh) (View.ld (iblk m c 3 t) rWx) (iblk m c 4 t) p
      = Lstm.gates (V m c main_arg1) (V m c main_arg0) (V m c main_v1) (V m c main_v2) (row t p) := by
  have h0 : (fun k : Fin 1024 => iblk m c 0 t (ix2 p k)) = fun k => V m c main_arg1 (ix2 (row t p) k) :=
    funext fun k => congrArg (V m c main_arg1) (embRow0 t p k)
  have h1 : (fun k : Fin 1024 => iblk m c 1 t (ix2 p k)) = fun k => V m c main_arg0 (ix2 (row t p) k) :=
    funext fun k => congrArg (V m c main_arg0) (embRow1 t p k)
  have hWh : (fun (k : Fin 1024) (j : Fin 4096) => View.ld (iblk m c 3 t) rWh (ix2 k j)) = fun k j => V m c main_v1 (ix2 (Lstm.lo k) j) :=
    funext fun k => funext fun j => congrArg (V m c main_v1) (embWh t k j)
  have hWx : (fun (k : Fin 1024) (j : Fin 4096) => View.ld (iblk m c 3 t) rWx (ix2 k j)) = fun k j => V m c main_v1 (ix2 (Lstm.hi k) j) :=
    funext fun k => funext fun j => congrArg (V m c main_v1) (embWx t k j)
  have hB : (fun j : Fin 4096 => iblk m c 4 t (ix1 j)) = fun j => V m c main_v2 (ix1 j) :=
    funext fun j => congrArg (V m c main_v2) (embB t j)
  show Lstm.gateK (fun k : Fin 1024 => iblk m c 0 t (ix2 p k)) (fun k : Fin 1024 => iblk m c 1 t (ix2 p k))
      (fun (k : Fin 1024) (j : Fin 4096) => View.ld (iblk m c 3 t) rWh (ix2 k j))
      (fun (k : Fin 1024) (j : Fin 4096) => View.ld (iblk m c 3 t) rWx (ix2 k j))
      (fun j : Fin 4096 => iblk m c 4 t (ix1 j)) = _
  rw [h0, h1, hWh, hWx, hB]
  rfl

/-- The previous cell value the body reads at (p, q) is the cell state at (128 t + p, q). -/
theorem cell_blk (c : Dev nD) (t : Fin cfg0.N) (p : Fin 128) (q : Fin 1024) :
    iblk m c 2 t (ix2 p q) = V m c main_arg2 (ix2 (row t p) q) :=
  congrArg (V m c main_arg2) (embRow2 t p q)

/-- The specification's arrays, of the arrays as the region finds them. -/
abbrev GC (c : Dev nD) : Lstm.Act :=
  Lstm.newCell (V m c main_arg1) (V m c main_arg0) (V m c main_arg2) (V m c main_v1) (V m c main_v2)
abbrev GH (c : Dev nD) : Lstm.Act :=
  Lstm.newHidden (V m c main_arg1) (V m c main_arg0) (V m c main_arg2) (V m c main_v1) (V m c main_v2)

/-- What point t writes back to window 6 is block t of `GC`. -/
theorem flushed6_eq (c : Dev nD) (t : Fin cfg0.N) :
    (dats m 0 c).flushed 6 t = ((cfg0.win 6).blk t).view.read (Elt Ideal) (GC m c) := by
  show (cfg0.win 6).cut (grid0.coords t) ((dats m 0 c).after 6 t) = _
  rw [after0_6]
  unfold outC
  rw [View.canon_unit_zero hz]
  simp only [View.ld_unit_zero (S := S128x1024) hz, View.ld_unit_zero (S := S4096) hz1]
  funext y
  obtain ⟨p, q, rfl⟩ : ∃ (p : Fin 128) (q : Fin 1024), y = ix2 p q := ⟨y 0, y 1, eq_ix2 y⟩
  show k0_pay2 (iblk m c 0 t) (iblk m c 1 t) (View.ld (iblk m c 3 t) rWh) (View.ld (iblk m c 3 t) rWx) (iblk m c 4 t) (iblk m c 2 t) (ix2 p q)
      = GC m c (((cfg0.win 6).blk t).view.emb (ix2 p q))
  refine (KPay.pay2_apply (iblk m c 0 t) (iblk m c 1 t) (View.ld (iblk m c 3 t) rWh) (View.ld (iblk m c 3 t) rWx) (iblk m c 4 t) (iblk m c 2 t) p q).trans ?_
  rw [gates_blk m c t p, embRow6 t p q, cell_blk m c t p q]
  rfl

/-- What point t writes back to window 5 is block t of `GH`. -/
theorem flushed5_eq (c : Dev nD) (t : Fin cfg0.N) :
    (dats m 0 c).flushed 5 t = ((cfg0.win 5).blk t).view.read (Elt Ideal) (GH m c) := by
  show (cfg0.win 5).cut (grid0.coords t) ((dats m 0 c).after 5 t) = _
  rw [after0_5]
  unfold outH
  rw [View.canon_unit_zero hz]
  simp only [View.ld_unit_zero (S := S128x1024) hz, View.ld_unit_zero (S := S4096) hz1]
  funext y
  obtain ⟨p, q, rfl⟩ : ∃ (p : Fin 128) (q : Fin 1024), y = ix2 p q := ⟨y 0, y 1, eq_ix2 y⟩
  show k0_pay3 (iblk m c 0 t) (iblk m c 1 t) (View.ld (iblk m c 3 t) rWh) (View.ld (iblk m c 3 t) rWx) (iblk m c 4 t) (iblk m c 2 t) (ix2 p q)
      = GH m c (((cfg0.win 5).blk t).view.emb (ix2 p q))
  refine (KPay.pay3_apply (iblk m c 0 t) (iblk m c 1 t) (View.ld (iblk m c 3 t) rWh) (View.ld (iblk m c 3 t) rWx) (iblk m c 4 t) (iblk m c 2 t) p q).trans ?_
  rw [gates_blk m c t p, embRow5 t p q, cell_blk m c t p q]
  rfl

/-! ## From the blocks to the arrays -/

/-- An index of the array is in point t's block of window 6 iff each coordinate is in the block's range on its axis. -/
theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v3_1).slice (win0_6.rect t)).set ↔ _
  rw [View.set_slice_whole, Rect.mem_set_unit]
  exact Iff.rfl

/-- Every row r of the array lies in the block of point r / 128: the 32 blocks of 128 rows tile the 4096 rows. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, htv⟩ : ∃ t : Fin cfg0.N, t.val = (i 0).val / 128 :=
    ⟨⟨(i 0).val / 128, lt_of_lt_of_eq (by omega : (i 0).val / 128 < 32) N_0.symm⟩, rfl⟩
  obtain ⟨e00, e01, e10, e11, e20, e21, e30, e31, e40, e50, e51, e60, e61⟩ := idx_facts t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

/-- An index of the array is in point t's block of window 5 iff each coordinate is in the block's range on its axis. -/
theorem mem_blk5 (t : Fin cfg0.N) (i : S4096x1024.Idx) :
    i ∈ ((cfg0.win 5).blk t).view.set ↔ ∀ a : Fin 2, win0_5.index t a * S128x1024.size a ≤ (i a).val ∧ (i a).val < win0_5.index t a * S128x1024.size a + S128x1024.size a := by
  show i ∈ ((View.whole main_v3_0).slice (win0_5.rect t)).set ↔ _
  rw [View.set_slice_whole, Rect.mem_set_unit]
  exact Iff.rfl

/-- Every row r of the array lies in the block of point r / 128: the 32 blocks of 128 rows tile the 4096 rows. -/
theorem cover5 (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, htv⟩ : ∃ t : Fin cfg0.N, t.val = (i 0).val / 128 :=
    ⟨⟨(i 0).val / 128, lt_of_lt_of_eq (by omega : (i 0).val / 128 < 32) N_0.symm⟩, rfl⟩
  obtain ⟨e00, e01, e10, e11, e20, e21, e30, e31, e40, e50, e51, e60, e61⟩ := idx_facts t
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 1024 ≤ (i 1).val ∧ (i 1).val < win0_5.index t (1 : Fin 2) * 1024 + 1024; omega

/-- The new cell state's array after the run. -/
theorem finalC (c : Dev nD) : (dats m 0 c).arrAt 6 cfg0.N = GC m c :=
  (dats m 0 c).arrAt_eq_of_cover 6 (GC m c) (fun t _ => flushed6_eq m c t) cover6

/-- The new hidden state's array after the run. -/
theorem finalH (c : Dev nD) : (dats m 0 c).arrAt 5 cfg0.N = GH m c :=
  (dats m 0 c).arrAt_eq_of_cover 5 (GH m c) (fun t _ => flushed5_eq m c t) cover5

/-- The same two arrays as functions of the LAUNCH memory: the host operations wrote no argument, and the packed weight
    and bias are the joins. -/
theorem GC_eq (c : Dev nD) : GC m c = Lstm.newCell (m ((c.tc : Thread nD τ).loc main_arg1)) (m ((c.tc : Thread nD τ).loc main_arg0)) (m ((c.tc : Thread nD τ).loc main_arg2)) (packedW m c) (packedB m c) := by
  show Lstm.newCell (V m c main_arg1) (V m c main_arg0) (V m c main_arg2) (V m c main_v1) (V m c main_v2) = _
  rw [V_main_arg1 m c, V_main_arg0 m c, V_main_arg2 m c, V_w m c, V_b m c]
theorem GH_eq (c : Dev nD) : GH m c = Lstm.newHidden (m ((c.tc : Thread nD τ).loc main_arg1)) (m ((c.tc : Thread nD τ).loc main_arg0)) (m ((c.tc : Thread nD τ).loc main_arg2)) (packedW m c) (packedB m c) := by
  show Lstm.newHidden (V m c main_arg1) (V m c main_arg0) (V m c main_arg2) (V m c main_v1) (V m c main_v2) = _
  rw [V_main_arg1 m c, V_main_arg0 m c, V_main_arg2 m c, V_w m c, V_b m c]

/-! ## The run, read -/

/-- From any memory with zero counters the idealized kernel program runs to the end with the new hidden state and the new
    cell state of the specification in its two results, and its arguments unchanged. -/
theorem run : θ_run defs (onTc (τ := τ) (main (F := Ideal))) ⟨m, fun _ => 0, ρ⟩ fun r => ∀ c : Dev nD,
      r.2.mem ((c.tc : Thread nD τ).loc main_v3_0) = Lstm.newHidden (m ((c.tc : Thread nD τ).loc main_arg1)) (m ((c.tc : Thread nD τ).loc main_arg0)) (m ((c.tc : Thread nD τ).loc main_arg2)) (packedW m c) (packedB m c)
      ∧ r.2.mem ((c.tc : Thread nD τ).loc main_v3_1) = Lstm.newCell (m ((c.tc : Thread nD τ).loc main_arg1)) (m ((c.tc : Thread nD τ).loc main_arg0)) (m ((c.tc : Thread nD τ).loc main_arg2)) (packedW m c) (packedB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans ((finalH m c).trans (GH_eq m c)),
      ((h c).1 6).trans ((finalC m c).trans (GC_eq m c)), kept m r h c⟩)
    (run_main m ρ)

end Cert.KernelIdeal.KValue

end
-- ==== Proof.RefValue.lean ====
/-
  The reference's two results, at the ideal values, are the LSTM cell of the specification.

  The reference joins the hidden state and the input side by side into one [4096, 2048] array, so that at column k < 1024
  it reads the hidden state at k and at column 1024 + k the input at k, and contracts its 2048 columns against the 2048 rows
  of the packed weight in ONE sum; split at 1024, that sum is the specification's two sums. It adds the packed bias read at
  the gate column, cuts the four gates out at columns 0, 1024, 2048 and 3072, and spells each logistic as
  1 / (1 + exp (-x)) with the word of 1.0, which is the logistic function of the extended reals.
  The packed weight and the packed bias (the four-piece joins) are carried whole, never opened.
-/
import proofs.«150148_j2448131358889_1_alg».proof.Proof.Gen.ReferenceIdeal.Run
import proofs.«150148_j2448131358889_1_alg».proof.Proof.Gen.ReferenceIdeal.Read
import proofs.«150148_j2448131358889_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

abbrev Act := (⟨S4096x1024, .f32⟩ : BufTy).Contents (Elt Ideal)
abbrev Wq := (⟨S2048x1024, .f32⟩ : BufTy).Contents (Elt Ideal)
abbrev Bq := (⟨S1024, .f32⟩ : BufTy).Contents (Elt Ideal)

variable (x0 x1 x2 : Act) (x3 : Wq) (x4 : Bq) (x5 : Wq) (x6 : Bq) (x7 : Wq) (x8 : Bq) (x9 : Wq) (x10 : Bq)

/-- The joined array at a column below 1024 is the hidden state there. -/
theorem cat_lo (r : Fin 4096) (k : Fin 1024) :
    val_main_v0 (F := Ideal) x0 x1 (ix2 r (Lstm.lo k)) = x1 (ix2 r k) := by
  unfold val_main_v0
  refine concatenate_pair_apply_left _ x1 x0 _ (ix2 r (Lstm.lo k)) rfl (ix2 r k) (fun b => ?_)
  match b with
  | ⟨0, _⟩ => rfl
  | ⟨1, _⟩ => rfl

/-- The joined array at column 1024 + k is the input at k. -/
theorem cat_hi (r : Fin 4096) (k : Fin 1024) :
    val_main_v0 (F := Ideal) x0 x1 (ix2 r (Lstm.hi k)) = x0 (ix2 r k) := by
  unfold val_main_v0
  refine concatenate_pair_apply_right _ x1 x0 _ (ix2 r (Lstm.hi k)) rfl rfl (ix2 r k) (fun b hb => ?_) ?_
  · match b with
    | ⟨0, _⟩ => rfl
    | ⟨1, _⟩ => exact absurd rfl hb
  · show k.val + 1024 = 1024 + k.val
    omega

/-- The gates' pre-activations, read at row r and column j. -/
theorem gates_apply (r : Fin 4096) (j : Fin 4096) :
    val_main_v6 (F := Ideal) x0 x1 x3 x4 x5 x6 x7 x8 x9 x10 (ix2 r j)
      = Lstm.gates x1 x0 (val_main_v1 (F := Ideal) x3 x5 x7 x9) (val_main_v2 (F := Ideal) x4 x6 x8 x10) r j := by
  rw [val_main_v6_apply, val_main_v3_apply, val_main_v5_apply, val_main_v4_apply]
  have el : ∀ k : Fin 2048, lidx_main_v3 (ix2 r j) k = ix2 r k := fun k =>
    funext fun a => Fin.ext (by match a with | ⟨0, _⟩ => rfl | ⟨1, _⟩ => rfl)
  have er : ∀ k : Fin 2048, ridx_main_v3 (ix2 r j) k = ix2 k j := fun k =>
    funext fun a => Fin.ext (by match a with | ⟨0, _⟩ => rfl | ⟨1, _⟩ => rfl)
  have eb : idx_main_v4 (idx_main_v5 (ix2 r j)) = ix1 j :=
    funext fun a => Fin.ext (by match a with | ⟨0, _⟩ => rfl)
  simp only [el, er, eb]
  exact Lstm.gates_eq_sum x1 x0 _ _ r j (fun k => val_main_v0 (F := Ideal) x0 x1 (ix2 r k))
    (cat_lo x0 x1 r) (cat_hi x0 x1 r)

/-- The forget gate at row r and column n: the logistic of the gates' column n. -/
theorem forget_apply (r : Fin 4096) (n : Fin 1024) :
    val_main_v16 (F := Ideal) x0 x1 x3 x4 x5 x6 x7 x8 x9 x10 (ix2 r n) = Ideal.logistic (Lstm.gates x1 x0 (val_main_v1 (F := Ideal) x3 x5 x7 x9) (val_main_v2 (F := Ideal) x4 x6 x8 x10) r (Lstm.col 0 (by omega) n)) := by
  rw [val_main_v16_apply, val_main_v15_apply, val_main_cst_0_apply, val_main_v14_apply, val_main_v13_apply, val_main_cst_apply, val_main_v12_apply, val_main_v11_apply, val_main_v7_apply]
  have e : idx_main_v7 (ix2 r n) = ix2 r (Lstm.col 0 (by omega) n) :=
    funext fun a => Fin.ext (by
      match a with
      | ⟨0, _⟩ => rfl
      | ⟨1, _⟩ => exact (Nat.zero_add _).symm)
  rw [e, gates_apply]
  exact Lstm.logistic_expanded _

/-- The input gate: the logistic of column 1024 + n. -/
theorem input_apply (r : Fin 4096) (n : Fin 1024) :
    val_main_v22 (F := Ideal) x0 x1 x3 x4 x5 x6 x7 x8 x9 x10 (ix2 r n) = Ideal.logistic (Lstm.gates x1 x0 (val_main_v1 (F := Ideal) x3 x5 x7 x9) (val_main_v2 (F := Ideal) x4 x6 x8 x10) r (Lstm.col 1024 (by omega) n)) := by
  rw [val_main_v22_apply, val_main_v21_apply, val_main_cst_2_apply, val_main_v20_apply, val_main_v19_apply, val_main_cst_1_apply, val_main_v18_apply, val_main_v17_apply, val_main_v8_apply]
  have e : idx_main_v8 (ix2 r n) = ix2 r (Lstm.col 1024 (by omega) n) :=
    funext fun a => Fin.ext (by
      match a with
      | ⟨0, _⟩ => rfl
      | ⟨1, _⟩ => rfl)
  rw [e, gates_apply]
  exact Lstm.logistic_expanded _

/-- The candidates: the hyperbolic tangent of column 2048 + n. -/
theorem cand_apply (r : Fin 4096) (n : Fin 1024) :
    val_main_v23 (F := Ideal) x0 x1 x3 x4 x5 x6 x7 x8 x9 x10 (ix2 r n) = Ideal.tanh (Lstm.gates x1 x0 (val_main_v1 (F := Ideal) x3 x5 x7 x9) (val_main_v2 (F := Ideal) x4 x6 x8 x10) r (Lstm.col 2048 (by omega) n)) := by
  rw [val_main_v23_apply, val_main_v9_apply]
  have e : idx_main_v9 (ix2 r n) = ix2 r (Lstm.col 2048 (by omega) n) :=
    funext fun a => Fin.ext (by
      match a with
      | ⟨0, _⟩ => rfl
      | ⟨1, _⟩ => rfl)
  rw [e, gates_apply]
  rfl

/-- The output gate: the logistic of column 3072 + n. -/
theorem output_apply (r : Fin 4096) (n : Fin 1024) :
    val_main_v29 (F := Ideal) x0 x1 x3 x4 x5 x6 x7 x8 x9 x10 (ix2 r n) = Ideal.logistic (Lstm.gates x1 x0 (val_main_v1 (F := Ideal) x3 x5 x7 x9) (val_main_v2 (F := Ideal) x4 x6 x8 x10) r (Lstm.col 3072 (by omega) n)) := by
  rw [val_main_v29_apply, val_main_v28_apply, val_main_cst_4_apply, val_main_v27_apply, val_main_v26_apply, val_main_cst_3_apply, val_main_v25_apply, val_main_v24_apply, val_main_v10_apply]
  have e : idx_main_v10 (ix2 r n) = ix2 r (Lstm.col 3072 (by omega) n) :=
    funext fun a => Fin.ext (by
      match a with
      | ⟨0, _⟩ => rfl
      | ⟨1, _⟩ => rfl)
  rw [e, gates_apply]
  exact Lstm.logistic_expanded _

/-- THE NEW CELL STATE: the reference's second result is the specification's. -/
theorem cell_eq :
    val_main_v32 (F := Ideal) x0 x1 x2 x3 x4 x5 x6 x7 x8 x9 x10
      = Lstm.newCell x1 x0 x2 (val_main_v1 (F := Ideal) x3 x5 x7 x9) (val_main_v2 (F := Ideal) x4 x6 x8 x10) := by
  funext i
  obtain ⟨r, n, rfl⟩ : ∃ (r : Fin 4096) (n : Fin 1024), i = ix2 r n := ⟨i 0, i 1, eq_ix2 i⟩
  rw [val_main_v32_apply, val_main_v30_apply, val_main_v31_apply, forget_apply, input_apply, cand_apply]
  rfl

/-- THE NEW HIDDEN STATE: the reference's first result is the specification's. -/
theorem hidden_eq :
    val_main_v34 (F := Ideal) x0 x1 x2 x3 x4 x5 x6 x7 x8 x9 x10
      = Lstm.newHidden x1 x0 x2 (val_main_v1 (F := Ideal) x3 x5 x7 x9) (val_main_v2 (F := Ideal) x4 x6 x8 x10) := by
  funext i
  obtain ⟨r, n, rfl⟩ : ∃ (r : Fin 4096) (n : Fin 1024), i = ix2 r n := ⟨i 0, i 1, eq_ix2 i⟩
  rw [val_main_v34_apply, val_main_v33_apply, output_apply, cell_eq]
  rfl

end Cert.ReferenceIdeal.RefValue

end
-- ==== Proof.lean ====
/-
  The certificate of an LSTM cell kernel against its jnp reference.

  Both programs compute, for each of 4096 batch rows, the four gates' pre-activations
      g = [hidden, input] . [W_f | W_i | W_c | W_o] + [b_f, b_i, b_c, b_o],
  then  new cell = logistic (g_f) * cell + logistic (g_i) * tanh (g_c)  and  new hidden = logistic (g_o) * tanh (new cell).
  The kernel works on blocks of 128 rows, narrows its matrix operands to bf16, and contracts the hidden part (rows
  0 .. 1023 of the packed weight) and the input part (rows 1024 .. 2047) in two products that it adds; the reference
  joins hidden and input into one [4096, 2048] array, contracts all 2048 columns in one product, and spells the logistic
  as 1 / (1 + exp (-x)). On the extended reals narrowing is the identity, a product into a zero accumulator is the plain
  sum, a sum over 2048 terms is the sum of its two halves in any commutative monoid (so no finiteness is used), and the
  spelt-out logistic is the logistic; the packing of the weights and of the biases is the same term on both sides.

  The three frames: the two kernel programs by the pipeline's frame run over proof data that name what the body leaves in
  each output block (the kernel body's triple by symbolic execution), the reference by its run with the results dropped.
  The ideal pass rewrote nothing, so the idealization claim is trivial.
-/
import proofs.«150148_j2448131358889_1_alg».proof.Defs
import proofs.«150148_j2448131358889_1_alg».proof.Proof.Gen.Kernel
import proofs.«150148_j2448131358889_1_alg».proof.Proof.Gen.KernelIdeal
import proofs.«150148_j2448131358889_1_alg».proof.Proof.Gen.ReferenceIdeal
import proofs.«150148_j2448131358889_1_alg».proof.Proof.Gen.Pre_finite_inputs
import proofs.«150148_j2448131358889_1_alg».proof.Proof.Gen.ReferenceIdeal.Run
import proofs.«150148_j2448131358889_1_alg».proof.Proof.Gen.ReferenceIdeal.Read
import proofs.«150148_j2448131358889_1_alg».proof.Proof.FrameIdeal
import proofs.«150148_j2448131358889_1_alg».proof.Proof.FrameBits
import proofs.«150148_j2448131358889_1_alg».proof.Proof.KValue
import proofs.«150148_j2448131358889_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both idealized programs, from memories that agree on the arguments, end with the specification's new hidden state
    and new cell state of the kernel's launch memory. -/
theorem algebraic : Cert.algebraic_KernelIdeal_ReferenceIdeal := by
  intro m ρ m' ρ' _ hagree
  refine ⟨fun c => Cert.Lstm.newHidden (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (Cert.KernelIdeal.KValue.packedW m c) (Cert.KernelIdeal.KValue.packedB m c),
    fun c => Cert.Lstm.newCell (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (Cert.KernelIdeal.KValue.packedW m c) (Cert.KernelIdeal.KValue.packedB m c),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v34_eq, Cert.ReferenceIdeal.RefValue.hidden_eq, h0, h1, h2, h3, h4, h5, h6, h7, h8, h9, h10]
    rfl
  · obtain ⟨h0, h1, h2, h3, h4, h5, h6, h7, h8, h9, h10⟩ := hagree c
    rw [Cert.ReferenceIdeal.Read.val_main_v32_eq, Cert.ReferenceIdeal.RefValue.cell_eq, h0, h1, h2, h3, h4, h5, h6, h7, h8, h9, h10]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
